-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x640000 : Shape := ⟨2, ![2, 640000]⟩
abbrev S4x128 : Shape := ⟨2, ![4, 128]⟩
abbrev S128 : Shape := ⟨1, ![128]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x4 .f32) (main_arg1 : IVec S2x640000 32) (main_arg2 : FVec F S4x128 .f32) (main_arg3 : FVec F S128 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x4 : Shape := ⟨2, ![100000, 4]⟩
abbrev S2x640000 : Shape := ⟨2, ![2, 640000]⟩
abbrev S4x128 : Shape := ⟨2, ![4, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x4 : Shape := ⟨2, ![740000, 4]⟩
abbrev S1x128 : Shape := ⟨2, ![1, 128]⟩
abbrev S100000x128 : Shape := ⟨2, ![100000, 128]⟩
abbrev S10000x4 : Shape := ⟨2, ![10000, 4]⟩
abbrev S10000x128 : Shape := ⟨2, ![10000, 128]⟩

abbrev nBuf : Space → Nat
  | .hbm => 65
  | .vmem => 6
  | .smem => 0
  | _ => 0

abbrev bufTy : (tb : Table) → Fin (tcTables nBuf tb) → BufTy
  | .hbm, ⟨0, _⟩ => ⟨S100000x4, .f32⟩
  | .hbm, ⟨1, _⟩ => ⟨S2x640000, .i32⟩
  | .hbm, ⟨2, _⟩ => ⟨S4x128, .f32⟩
  | .hbm, ⟨3, _⟩ => ⟨S128, .f32⟩
  | .hbm, ⟨4, _⟩ => ⟨S100000, .i32⟩
  | .hbm, ⟨5, _⟩ => ⟨S1x640000, .i32⟩
  | .hbm, ⟨6, _⟩ => ⟨S640000, .i32⟩
  | .hbm, ⟨7, _⟩ => ⟨S740000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S_, .f32⟩
  | .hbm, ⟨12, _⟩ => ⟨S740000, .f32⟩
  | .hbm, ⟨13, _⟩ => ⟨S_, .f32⟩
  | .hbm, ⟨14, _⟩ => ⟨S100000, .f32⟩
  | .hbm, ⟨15, _⟩ => ⟨S740000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S740000, .i32⟩
  | .hbm, ⟨30, _⟩ => ⟨S740000, .i1⟩
  | .hbm, ⟨31, _⟩ => ⟨S_, .i32⟩
  | .hbm, ⟨32, _⟩ => ⟨S740000, .i32⟩
  | .hbm, ⟨33, _⟩ => ⟨S740000, .i32⟩
  | .hbm, ⟨34, _⟩ => ⟨S740000, .i32⟩
  | .hbm, ⟨35, _⟩ => ⟨S740000x1, .i32⟩
  | .hbm, ⟨36, _⟩ => ⟨S740000, .f32⟩
  | .hbm, ⟨37, _⟩ => ⟨S_, .i32⟩
  | .hbm, ⟨38, _⟩ => ⟨S740000, .i32⟩
  | .hbm, ⟨39, _⟩ => ⟨S740000, .i1⟩
  | .hbm, ⟨40, _⟩ => ⟨S_, .i32⟩
  | .hbm, ⟨41, _⟩ => ⟨S740000, .i32⟩
  | .hbm, ⟨42, _⟩ => ⟨S740000, .i32⟩
  | .hbm, ⟨43, _⟩ => ⟨S740000, .i32⟩
  | .hbm, ⟨44, _⟩ => ⟨S740000x1, .i32⟩
  | .hbm, ⟨45, _⟩ => ⟨S740000, .f32⟩
  | .hbm, ⟨46, _⟩ => ⟨S740000, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x4, .f32⟩
  | .hbm, ⟨56, _⟩ => ⟨S740000x1, .f32⟩
  | .hbm, ⟨57, _⟩ => ⟨S740000x4, .f32⟩
  | .hbm, ⟨58, _⟩ => ⟨S740000x4, .f32⟩
  | .hbm, ⟨59, _⟩ => ⟨S_, .f32⟩
  | .hbm, ⟨60, _⟩ => ⟨S100000x4, .f32⟩
  | .hbm, ⟨61, _⟩ => ⟨S740000x1, .i32⟩
  | .hbm, ⟨62, _⟩ => ⟨S100000x4, .f32⟩
  | .hbm, ⟨63, _⟩ => ⟨S1x128, .f32⟩
  | .hbm, ⟨64, _⟩ => ⟨S100000x128, .f32⟩
  | .local _ .vmem, ⟨0, _⟩ => ⟨S10000x4, .f32⟩
  | .local _ .vmem, ⟨1, _⟩ => ⟨S10000x4, .f32⟩
  | .local _ .vmem, ⟨2, _⟩ => ⟨S4x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x4_0_1 : S740000x1.BroadcastsInDim S740000x4 (![0, 1] : Fin 2 → Fin S740000x4.rank)
  bcast_S_S100000x4 : S_.BroadcastsInDim S100000x4 (![] : Fin 0 → Fin S100000x4.rank)
  shapeCasts_S128_S1x128 : S128.ShapeCasts S1x128
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x4_S740000x1_S740000x4_1_0_n_n_0_1_14_wf : GatherDims.WF S100000x4 S740000x1 S740000x4 [1] [0] [] [0] [] 1 ![1, 4]
  scatter_S100000x4_S740000x1_S740000x4_1_0_0_1_wf : ScatterDims.WF S100000x4 S740000x1 S740000x4 [1] [0] [0] 1
  dot_S10000x4_S4x128_S10000x128_1_0_0_1_n_n_wf : DotDims.WF S10000x4 S4x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x4_S740000x1_S740000x4_1_0_n_n_0_1_14 : GatherDims S100000x4 S740000x1 S740000x4 where
  offsetDims := [1]
  collapsedSliceDims := [0]
  operandBatchingDims := []
  startIndicesBatchingDims := []
  startIndexMap := [0]
  indexVectorDim := 1
  sliceSizes := ![1, 4]
  wf := gather_S100000x4_S740000x1_S740000x4_1_0_n_n_0_1_14_wf
def scatter_S100000x4_S740000x1_S740000x4_1_0_0_1 : ScatterDims S100000x4 S740000x1 S740000x4 where
  updateWindowDims := [1]
  insertedWindowDims := [0]
  scatterDimsToOperandDims := [0]
  indexVectorDim := 1
  wf := scatter_S100000x4_S740000x1_S740000x4_1_0_0_1_wf
def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf

abbrev win0_0 : Pipeline.Window sig grid0 :=
  Pipeline.Window.ofSpec (Memref.whole main_v44) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x4 : Shape := ⟨2, ![100000, 4]⟩
abbrev S2x640000 : Shape := ⟨2, ![2, 640000]⟩
abbrev S4x128 : Shape := ⟨2, ![4, 128]⟩
abbrev S128 : Shape := ⟨1, ![128]⟩
abbrev S100000x128 : Shape := ⟨2, ![100000, 128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x640000, .i32⟩
  | .hbm, ⟨2, _⟩ => ⟨S4x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x640000, .i32⟩
  | .hbm, ⟨7, _⟩ => ⟨S640000, .i32⟩
  | .hbm, ⟨8, _⟩ => ⟨S740000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S_, .f32⟩
  | .hbm, ⟨13, _⟩ => ⟨S740000, .f32⟩
  | .hbm, ⟨14, _⟩ => ⟨S_, .f32⟩
  | .hbm, ⟨15, _⟩ => ⟨S100000, .f32⟩
  | .hbm, ⟨16, _⟩ => ⟨S740000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S_, .i32⟩
  | .hbm, ⟨49, _⟩ => ⟨S740000, .i32⟩
  | .hbm, ⟨50, _⟩ => ⟨S740000, .i1⟩
  | .hbm, ⟨51, _⟩ => ⟨S_, .i32⟩
  | .hbm, ⟨52, _⟩ => ⟨S740000, .i32⟩
  | .hbm, ⟨53, _⟩ => ⟨S740000, .i32⟩
  | .hbm, ⟨54, _⟩ => ⟨S740000, .i32⟩
  | .hbm, ⟨55, _⟩ => ⟨S740000x1, .i32⟩
  | .hbm, ⟨56, _⟩ => ⟨S740000x128, .f32⟩
  | .hbm, ⟨57, _⟩ => ⟨S740000x1, .f32⟩
  | .hbm, ⟨58, _⟩ => ⟨S740000x128, .f32⟩
  | .hbm, ⟨59, _⟩ => ⟨S740000x128, .f32⟩
  | .hbm, ⟨60, _⟩ => ⟨S_, .f32⟩
  | .hbm, ⟨61, _⟩ => ⟨S100000x128, .f32⟩
  | .hbm, ⟨62, _⟩ => ⟨S740000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x4_S4x128_S100000x128_1_0_0_1_n_n_wf : DotDims.WF S100000x4 S4x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.KernelPoint.lean ====
/-
  One grid point of the kernel's pallas_call, entry by entry.

  At a point the body loads a 10000 × 4 block of the aggregated features, the whole 4 × 128 weight matrix and the
  1 × 128 bias row, multiplies the block by the weights into a zero accumulator and adds the bias row to every row.
  Read on the extended reals the changes of float format are the identity, so entry `(p, q)` of what the point stores is
  `∑ k, a (p, k) · w (k, q) + b (0, q)` of its loaded blocks. Block `t` of the aggregated array is its rows
  `10000 t … 10000 t + 9999`, the weights and the bias are the same block at every point, and entry `(p, q)` of the
  output's block `t` is entry `(10000 t + p, q)` of the output. So what the point stores there is the dense layer of the
  WHOLE arrays at that entry.
-/
import proofs.«105786_j47519518163429_1_alg».proof.Proof.Gen.KernelIdeal.Frame
import proofs.«105786_j47519518163429_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

/-- The dense layer on whole arrays: row `n` of the aggregated features times the weights, plus the bias row. -/
def dense (agg : FVec Ideal S100000x4 .f32) (W : FVec Ideal S4x128 .f32) (b2 : FVec Ideal S1x128 .f32) :
    FVec Ideal S100000x128 .f32 :=
  fun i => (∑ k : Fin 4, agg (ix2 (i 0) k) * W (ix2 k (i 1))) + b2 (ix2 (0 : Fin 1) (i 1))

theorem hz : (![0, 0] : Fin 2 → Nat) = fun _ => 0 := funext fun a => by fin_cases a <;> rfl

/-- The printed product's dimension numbers are those of a plain 10000 × 4 by 4 × 128 product. -/
theorem dot_eq_plain : dot_S10000x4_S4x128_S10000x128_1_0_0_1_n_n = DotDims.plain 10000 4 128 := rfl

/-- What a point stores, at entry `(p, q)`, from the blocks it loaded: the row of the feature block against the column
    of the weights, summed over the four features, plus the bias at column `q`. -/
theorem pay_apply (x0 : Vec Ideal S10000x4 .f32) (x1 : Vec Ideal S4x128 .f32) (x2 : Vec Ideal S1x128 .f32)
    (p : Fin 10000) (q : Fin 128) :
    k0_pay1 x0 x1 x2 (ix2 p q) = (∑ k : Fin 4, x0 (ix2 p k) * x1 (ix2 k q)) + x2 (ix2 (0 : Fin 1) q) := by
  unfold k0_pay1
  rw [addf_apply, dot_eq_plain, shapeCast_self, shapeCast_self]
  refine congrArg₂ (· + ·) ?_ ?_
  · exact Cert.LibPlainProduct.matmul_zero_plain_apply (truncf (F := Ideal) .bf16 x0 bitsLt_bf16_f32)
      (truncf (F := Ideal) .bf16 x1 bitsLt_bf16_f32) none p q
  · exact broadcastTo_1b_ab_apply x2 broadcasts_S1x128_S10000x128 p q

/-- The printed index maps, decided over the ten points: the feature window and the output window sit on the same row
    block `t`, and the weights and the bias are block 0 at every point. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every row block of the output is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- Entry `(p, q)` of the output's block `t` is entry `(10000 t + p, q)` of the output array. -/
theorem out_emb (t : Fin cfg0.N) (p : Fin 10000) (q : Fin 128) :
    ∃ (r : Fin 100000) (s : Fin 128), ((cfg0.win 3).blk t).view.emb (ix2 p q) = ix2 r s
      ∧ r.val = win0_3.index t (0 : Fin 2) * 10000 + p.val ∧ s.val = win0_3.index t (1 : Fin 2) * 128 + q.val := by
  refine ⟨(((cfg0.win 3).blk t).view.emb (ix2 p q)) 0, (((cfg0.win 3).blk t).view.emb (ix2 p q)) 1, eq_ix2 _, ?_, ?_⟩
  · show win0_3.index t (0 : Fin 2) * 10000 + 1 * p.val = _
    omega
  · show win0_3.index t (1 : Fin 2) * 128 + 1 * q.val = _
    omega

/-! ## Blocks of arbitrary arrays

The three input windows' blocks are read off whatever arrays the call finds; nothing below looks inside those arrays,
so they are variables here (`A0` the aggregated features, `A1` the weights, `A2` the bias row). -/

/-- Entry `(p, k)` of the feature window's block `t` is the array's entry `(r, k)` at the row `r` of the array that row
    `p` of block `t` is. -/
theorem read_features (c : Dev nD) (A0 : Buf (Elt Ideal) ((c : Thread nD τ).loc (Pipeline.arrRef spec0 0)))
    (t : Fin cfg0.N) (p : Fin 10000) (k : Fin 4) (r : Fin 100000)
    (hr : r.val = win0_0.index t (0 : Fin 2) * 10000 + p.val) (h1 : win0_0.index t (1 : Fin 2) = 0) :
    ((cfg0.win 0).blk t).view.read (Elt Ideal) A0 (ix2 p k) = A0 (ix2 r k) := by
  show A0 (((cfg0.win 0).blk t).view.emb (ix2 p k)) = A0 (ix2 r k)
  refine congrArg A0 (funext fun a => Fin.ext ?_)
  match a with
  | ⟨0, _⟩ =>
    show win0_0.index t (0 : Fin 2) * 10000 + 1 * p.val = r.val
    omega
  | ⟨1, _⟩ =>
    show win0_0.index t (1 : Fin 2) * 4 + 1 * k.val = k.val
    omega

/-- The weight window's block at every point is the whole weight matrix. -/
theorem read_weights (c : Dev nD) (A1 : Buf (Elt Ideal) ((c : Thread nD τ).loc (Pipeline.arrRef spec0 1)))
    (t : Fin cfg0.N) (k : Fin 4) (q s : Fin 128)
    (h0 : win0_1.index t (0 : Fin 2) = 0) (hs : s.val = win0_1.index t (1 : Fin 2) * 128 + q.val) :
    ((cfg0.win 1).blk t).view.read (Elt Ideal) A1 (ix2 k q) = A1 (ix2 k s) := by
  show A1 (((cfg0.win 1).blk t).view.emb (ix2 k q)) = A1 (ix2 k s)
  refine congrArg A1 (funext fun a => Fin.ext ?_)
  match a with
  | ⟨0, _⟩ =>
    show win0_1.index t (0 : Fin 2) * 4 + 1 * k.val = k.val
    omega
  | ⟨1, _⟩ =>
    show win0_1.index t (1 : Fin 2) * 128 + 1 * q.val = s.val
    omega

/-- The bias window's block at every point is the whole bias row. -/
theorem read_bias (c : Dev nD) (A2 : Buf (Elt Ideal) ((c : Thread nD τ).loc (Pipeline.arrRef spec0 2)))
    (t : Fin cfg0.N) (q s : Fin 128)
    (h0 : win0_2.index t (0 : Fin 2) = 0) (hs : s.val = win0_2.index t (1 : Fin 2) * 128 + q.val) :
    ((cfg0.win 2).blk t).view.read (Elt Ideal) A2 (ix2 (0 : Fin 1) q) = A2 (ix2 (0 : Fin 1) s) := by
  show A2 (((cfg0.win 2).blk t).view.emb (ix2 (0 : Fin 1) q)) = A2 (ix2 (0 : Fin 1) s)
  refine congrArg A2 (funext fun a => Fin.ext ?_)
  match a with
  | ⟨0, _⟩ =>
    show win0_2.index t (0 : Fin 2) * 1 + 1 * 0 = 0
    omega
  | ⟨1, _⟩ =>
    show win0_2.index t (1 : Fin 2) * 128 + 1 * q.val = s.val
    omega

/-- What the body computes at point `t`, entry `(p, q)`, from the three blocks is the dense layer of the whole arrays at
    the array entry that `(p, q)` of the output's block `t` is. -/
theorem point_eq (c : Dev nD) (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (t : Fin cfg0.N) (p : Fin 10000) (q : Fin 128) :
    k0_pay1 (((cfg0.win 0).blk t).view.read (Elt Ideal) A0) (((cfg0.win 1).blk t).view.read (Elt Ideal) A1)
        (((cfg0.win 2).blk t).view.read (Elt Ideal) A2) (ix2 p q)
      = dense A0 A1 A2 (((cfg0.win 3).blk t).view.emb (ix2 p q)) := by
  obtain ⟨e0, e1, e2, e3, e4, e5, e6, e7⟩ := idx_facts t
  obtain ⟨r, s, hi, hr, hs⟩ := out_emb t p q
  rw [hi]
  rw [e7] at hs
  have hr0 : r.val = win0_0.index t (0 : Fin 2) * 10000 + p.val := by rw [e0]; exact hr
  have hs1 : s.val = win0_1.index t (1 : Fin 2) * 128 + q.val := by rw [e3]; exact hs
  have hs2 : s.val = win0_2.index t (1 : Fin 2) * 128 + q.val := by rw [e5]; exact hs
  refine (pay_apply _ _ _ p q).trans ?_
  exact congrArg₂ (· + ·)
    (Finset.sum_congr rfl fun k _ => congrArg₂ (· * ·) (read_features c A0 t p k r hr0 e1)
      (read_weights c A1 t k q s e2 hs1))
    (read_bias c A2 t q s e4 hs2)

end Cert.KernelIdeal.Dense

end
-- ==== Proof.KernelValue.lean ====
/-
  What the kernel leaves in its output array, as one function of the arrays its one pallas_call reads.

  At every one of its ten points the call stores, in the output's block `t`, the dense layer of the whole arrays read at
  that block's entries (KernelPoint). The ten row blocks of 10000 rows tile the 100000 rows of the output, so after the
  run the output array holds, at `(n, c)`, `∑ k, agg (n, k) · W (k, c) + b₂ (0, c)`, where `agg`, `W`, `b₂` are the
  arrays the call's three input windows are staged from, as the call finds them.
-/
import proofs.«105786_j47519518163429_1_alg».proof.Proof.Gen.KernelIdeal.Value
import proofs.«105786_j47519518163429_1_alg».proof.Proof.KernelPoint
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- For ANY arrays `A0`, `A1`, `A2` under the three input windows: what the body stores at point `t`, read through the
    output window's block, is block `t` of the dense layer of those arrays. (The arrays are variables: nothing here
    depends on what they hold.) -/
theorem flushed_gen (c : Dev nD) (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2))) (t : Fin cfg0.N) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (dense A0 A1 A2) := by
  unfold out0_3
  rw [View.canon_unit_zero hz]
  simp only [View.ld_unit_zero (S := S10000x4) hz, View.ld_unit_zero (S := S4x128) hz, View.ld_unit_zero (S := S1x128) hz]
  funext j
  obtain ⟨p, q, rfl⟩ : ∃ (p : Fin 10000) (q : Fin 128), j = ix2 p q := ⟨j 0, j 1, eq_ix2 j⟩
  exact point_eq c A0 A1 A2 t p q

/-- What point `t` writes back is block `t` of the dense layer of the arrays the call finds under its input windows. -/
theorem flushed_eq (c : Dev nD) (t : Fin cfg0.N) :
    (dats m 0 c).flushed 3 t
      = ((cfg0.win 3).blk t).view.read (Elt Ideal)
          (dense (V m c (Pipeline.arrRef spec0 0)) (V m c (Pipeline.arrRef spec0 1)) (V m c (Pipeline.arrRef spec0 2))) := by
  rw [Cert.KernelIdeal.Value.flushed3]
  unfold iblk
  generalize V m c (Pipeline.arrRef spec0 0) = A0
  generalize V m c (Pipeline.arrRef spec0 1) = A1
  generalize V m c (Pipeline.arrRef spec0 2) = A2
  exact flushed_gen c A0 A1 A2 t

/-- An index of the output is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v46).slice (win0_3.rect t)).set ↔ _
  rw [View.set_slice_whole, Rect.mem_set_unit]
  exact Iff.rfl

/-- The ten row blocks tile the output: row `n` is in block `n / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The output array after the run: the dense layer of the three arrays the call reads. -/
theorem final (c : Dev nD) :
    (dats m 0 c).arrAt 3 cfg0.N
      = dense (V m c (Pipeline.arrRef spec0 0)) (V m c (Pipeline.arrRef spec0 1)) (V m c (Pipeline.arrRef spec0 2)) := by
  have hG := flushed_eq m c
  generalize dense (V m c (Pipeline.arrRef spec0 0)) (V m c (Pipeline.arrRef spec0 1)) (V m c (Pipeline.arrRef spec0 2)) = G at hG ⊢
  exact (dats m 0 c).arrAt_eq_of_cover 3 G (fun t _ => hG t) cover

/-- The kernel's run with the output array named as that function, the arguments unchanged. -/
theorem run : θ_run defs (onTc (τ := τ) (main (F := Ideal))) ⟨m, fun _ => 0, ρ⟩ fun r => ∀ c : Dev nD,
      r.2.mem ((c : Thread nD τ).loc main_v46)
        = dense (V m c (Pipeline.arrRef spec0 0)) (V m c (Pipeline.arrRef spec0 1)) (V m c (Pipeline.arrRef spec0 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Dense

end
-- ==== Proof.Glue.lean ====
/-
  The edge bookkeeping both programs do before they differ: the edge lists with their self loops, the degree of every
  node, and the symmetric normalisation weight of every edge.

  From the `2 × 640000` edge array both programs take the source list (row 0) and the target list (row 1), each followed
  by the nodes `0 … 99999` themselves (one self loop per node): 740000 edges. A gather reads its positions with negative
  ones wrapped once by the table's length (`wrap`); a scatter reads the raw target list. The degree `deg` counts, per
  node, the edges whose target it is. Its inverse square root `dis` is `1 / √(max deg ε)` where `deg > 0` and `0`
  elsewhere, and the weight of edge `e` is `ν e = dis (source e) · dis (target e)`.

  All that the equivalence needs of `ν` is that it is a real number at every edge, whatever the edge array holds: `dis`
  is `0` or the inverse square root of something at least `ε > 0`, which is a real (and `0` at `+∞`), so `ν` is a
  product of two reals. The terms are stated for any float family, with the kernel program's shape facts; the
  reference's term is the same text over its own copies of those facts.
-/
import proofs.«105786_j47519518163429_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Glue

open Cert.KernelIdeal Cert.KernelIdeal.Gen Idealize.ShloMosaic Idealize.ShloMosaic.ValueIdx

section Terms

variable {F : FTy → Type} [FloatOps F]

/-- The source of every edge: row 0 of the edge array, then every node once (its self loop). -/
def srcv (ei : IVec S2x640000 32) : IVec S740000 32 :=
  concatenate S740000 0 [⟨S640000, (shapeCast _ (extractStridedSlice S1x640000 ![0, 0] ei slices_S2x640000_S1x640000_0_0) shapeCasts_S1x640000_S640000)⟩, ⟨S100000, (iotaInDim S100000 32 0)⟩] concatenates_S640000_S100000_S740000_d0

/-- The target of every edge: row 1 of the edge array, then every node once. -/
def dstv (ei : IVec S2x640000 32) : IVec S740000 32 :=
  concatenate S740000 0 [⟨S640000, (shapeCast _ (extractStridedSlice S1x640000 ![1, 0] ei slices_S2x640000_S1x640000_1_0) shapeCasts_S1x640000_S640000)⟩, ⟨S100000, (iotaInDim S100000 32 0)⟩] concatenates_S640000_S100000_S740000_d0

/-- A position as a gather reads it: a negative one moved up once by the number of nodes. -/
def wrap (v : IVec S740000 32) : IVec S740000 32 :=
  select (cmpi .slt v (broadcastInDim S740000 ![] bcast_S_S740000 (constantI S_ 32 0#32)))
    (addi v (broadcastInDim S740000 ![] bcast_S_S740000 (constantI S_ 32 100000#32))) v

/-- A list of 740000 entries as a one-column table. -/
def asCol {α : Type} (v : S740000.Idx → α) : S740000x1.Idx → α :=
  broadcastInDim S740000x1 ![0] bcast_S740000_S740000x1_0 v

/-- The degree of every node: one added per edge at its target. -/
def deg (ei : IVec S2x640000 32) : FVec F S100000 .f32 :=
  Host.scatterAdd scatter_S100000_S740000x1_S740000_n_0_0_1 (broadcastInDim S100000 ![] bcast_S_S100000 (constant S_ .f32 0x00000000#32))
    (asCol (dstv ei)) (broadcastInDim S740000 ![] bcast_S_S740000 (constant S_ .f32 0x3F800000#32))

/-- Of a vector `d` of degrees: `1 / √(max d ε)` where `d` is positive, `0` elsewhere. -/
def disOf (d : FVec F S100000 .f32) : FVec F S100000 .f32 :=
  select (cmpf (F := F) .ogt d (broadcastInDim S100000 ![] bcast_S_S100000 (constant S_ .f32 0x00000000#32)))
    (Host.rsqrt (maximumf d (broadcastInDim S100000 ![] bcast_S_S100000 (constant S_ .f32 0x2B8CBCCC#32))))
    (broadcastInDim S100000 ![] bcast_S_S100000 (id (constant S_ .f32 0x00000000#32)))

/-- The inverse square root of the degree, floored and guarded as above. -/
def dis (ei : IVec S2x640000 32) : FVec F S100000 .f32 := disOf (deg ei)

/-- The weight of every edge: the product of `dis` at its source and at its target. -/
def nu (ei : IVec S2x640000 32) : FVec F S740000 .f32 :=
  mulf (Host.gather gather_S100000_S740000x1_S740000_n_0_n_n_0_1_1 (dis ei) (asCol (wrap (srcv ei))))
    (Host.gather gather_S100000_S740000x1_S740000_n_0_n_n_0_1_1 (dis ei) (asCol (wrap (dstv ei))))

end Terms

/-! ## At the exact instance the weights are real numbers -/

/-- The floor `ε` under the degree denotes a positive real (`9223372 · 2⁻⁶³`, about `10⁻¹²`). -/
theorem eps_pos : ∃ r : ℝ, 0 < r ∧ Ideal.ofBits .f32 0x2B8CBCCC#32 = (r : EReal) := by
  refine ⟨9223372 * (2 : ℝ) ^ (-63 : ℤ), by positivity, ?_⟩
  simp [Ideal.ofBits, Ideal.ieee, -EReal.coe_mul]

/-- A scalar constant repeated over any shape reads the constant's value at every index. -/
theorem scalar_const_apply {t : Shape} (h : (⟨0, ![]⟩ : Shape).BroadcastsInDim t (![] : Fin 0 → Fin t.rank)) (b : BitVec 32) (j : t.Idx) :
    broadcastInDim t ![] h (constant (F := Ideal) ⟨0, ![]⟩ .f32 b) j = Ideal.ofBits .f32 b :=
  (broadcastInDim_apply (![] : Fin 0 → Fin t.rank) h (constant (F := Ideal) ⟨0, ![]⟩ .f32 b) j ix0 fun a => a.elim0).trans rfl

/-- The inverse square root of a positive extended real is a real number: `1 / √r` at a real `r > 0`, `0` at `+∞`. -/
theorem rsqrt_real_of_pos (y : EReal) (hy : 0 < y) : ∃ r : ℝ, Ideal.rsqrt y = (r : EReal) := by
  induction y using EReal.rec with
  | bot => exact absurd hy (by simp)
  | top => exact ⟨0, by rw [EReal.coe_zero]; rfl⟩
  | coe s =>
    have hs : 0 < s := by exact_mod_cast hy
    refine ⟨(Real.sqrt s)⁻¹, ?_⟩
    show (if s < 0 then (⊥ : EReal) else if s = 0 then ⊤ else ((Real.sqrt s)⁻¹ : ℝ)) = _
    rw [if_neg (not_lt.2 hs.le), if_neg hs.ne']

/-- `disOf d` is a real number at every node, whatever the vector `d` holds there: nothing is used of the degree. -/
theorem disOf_real (d : FVec Ideal S100000 .f32) (i : S100000.Idx) : ∃ r : ℝ, disOf (F := Ideal) d i = (r : EReal) := by
  unfold disOf
  rw [select_apply]
  by_cases hb : cmpf (F := Ideal) .ogt d (broadcastInDim S100000 ![] bcast_S_S100000 (constant S_ .f32 0x00000000#32)) i = 1#1
  · rw [hb, select_one]
    obtain ⟨r, hr, he⟩ := eps_pos
    simp only [Host.rsqrt, Ideal.hostUnary_rsqrt_def]
    rw [maximumf_apply, scalar_const_apply, he]
    exact rsqrt_real_of_pos _ (lt_max_of_lt_right (by exact_mod_cast hr))
  · rw [eq_zero_of_ne_one hb, select_zero]
    refine ⟨0, ?_⟩
    show broadcastInDim S100000 ![] bcast_S_S100000 (constant (F := Ideal) S_ .f32 0x00000000#32) i = _
    rw [scalar_const_apply]; simp

/-- So every edge's weight is a real number. -/
theorem nu_real (ei : IVec S2x640000 32) (j : S740000.Idx) : ∃ r : ℝ, nu (F := Ideal) ei j = (r : EReal) := by
  unfold nu dis
  rw [mulf_apply]
  generalize deg (F := Ideal) ei = d
  obtain ⟨a, ha⟩ := disOf_real d (gather_S100000_S740000x1_S740000_n_0_n_n_0_1_1.operandIdx j (asCol (wrap (srcv ei))))
  obtain ⟨b, hb⟩ := disOf_real d (gather_S100000_S740000x1_S740000_n_0_n_n_0_1_1.operandIdx j (asCol (wrap (dstv ei))))
  refine ⟨a * b, ?_⟩
  show disOf (F := Ideal) d _ * disOf (F := Ideal) d _ = _
  rw [ha, hb, EReal.coe_mul]

end Cert.KernelIdeal.Glue

end
-- ==== Proof.LibRowTake.lean ====
/-
  A table's rows taken at a list of positions, read at one entry, for every size.

  jnp's `table[idx]` over an `R × C` table and `n` positions is a gather whose start indices are the `n × 1` column
  of positions: the result's axis 1 is its one offset axis and runs over the table's axis 1 whole, the table's axis 0 is
  collapsed and is the one axis a start index names, and the index vector lies along axis 1 of the start indices. The
  result is `n × C`, and its entry `(e, c)` is the table's entry at column `c` of the row position `e` names, that
  position read as a signed integer and clamped into `[0, R - 1]`: a negative position reads row 0, one past the end
  reads the last row.

  The reason is a reading of the operand index coordinate by coordinate. On the table's axis 1 no start index applies
  and nothing is batched, so the coordinate is the result's own offset coordinate, its coordinate on axis 1, which is
  `c`. On the table's axis 0 the offset is zero (the axis is collapsed, so its slice has size one) and the coordinate is
  the clamped start index; the start index of entry `(e, c)` is read at the result's batch coordinates, here the single
  coordinate on axis 0, which is `e`, with component 0 on the index vector's axis: the column's entry `(e, 0)`.

  The dimension numbers enter as hypotheses, so a program's printed record with these numbers is an instance, each
  hypothesis by unfolding.
-/
import Idealize.ShloMosaic.PureOps.ShapeOps
import Idealize.ShloMosaic.Lib.ValueIdx

namespace Cert.LibRowTake

open Idealize.ShloMosaic Idealize.ShloMosaic.ValueIdx

/-- The row of an `R`-row table that a position word names: the word read signed, clamped into `[0, R - 1]`. -/
def rowOf {w : ℕ} (R : ℕ) (hR : 0 < R) (p : BitVec w) : Fin R := ⟨min p.toInt.toNat (R - 1), by omega⟩

/-- Entry `(e, c)` of the rows of `x` taken at the positions `idx`: column `c` of the row of `x` that position `e`
    names, read signed and clamped into the table. -/
theorem gather_rows {α : Type} {R C n w : ℕ} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![R, C]⟩ : Shape).Idx → α) (idx : IVec ⟨2, ![n, 1]⟩ w) (e : Fin n) (c : Fin C) (hR : 0 < R) :
    Host.gather d x idx (ix2 e c) = x (ix2 (rowOf R hR (idx (ix2 e 0))) c) := by
  have hnb : ∀ a : Fin 2, a ∉ d.operandBatchingDims := fun a => by rw [hob]; exact List.not_mem_nil
  have hk1 : (1 : Fin 2) ∈ d.sKept := by rw [GatherDims.mem_sKept, hcoll]; exact ⟨by simp, hnb 1⟩
  have hk0 : (0 : Fin 2) ∉ d.sKept := by rw [GatherDims.mem_sKept, hcoll]; simp
  have hm1 : (1 : Fin 2) ∉ d.startIndexMap := by rw [hsim]; simp
  have hm0 : (0 : Fin 2) ∈ d.startIndexMap := by rw [hsim]; exact List.mem_singleton.mpr rfl
  have hsl : d.sliceSizes 0 = 1 := d.slice_collapsed 0 (by rw [hcoll]; exact List.mem_singleton.mpr rfl)
  -- the result's one offset axis is axis 1, its one batch axis is axis 0
  have hoffm : ∀ a ∈ d.offsetDims, a = (1 : Fin 2) := fun a ha => by
    rw [hoff] at ha; exact List.mem_singleton.1 ha
  have hoff1 : ∀ (i : Nat) (hi : i < d.offsetDims.length), d.offsetDims[i] = (1 : Fin 2) := fun i hi =>
    hoffm _ (List.getElem_mem hi)
  have hbatm : ∀ a ∈ d.batchDims, a = (0 : Fin 2) := fun a ha => by
    simp only [GatherDims.batchDims, Shape.kept, hoff, List.mem_filter, List.mem_singleton] at ha
    have hne : a ≠ (1 : Fin 2) := by simpa using ha.2
    have hlt : a.val < 2 := a.isLt
    have hv : a.val ≠ 1 := fun h => hne (Fin.ext h)
    apply Fin.ext
    show a.val = 0
    omega
  have hbat0 : ∀ (i : Nat) (hi : i < d.batchDims.length), d.batchDims[i] = (0 : Fin 2) := fun i hi =>
    hbatm _ (List.getElem_mem hi)
  have rd0 : ∀ a : Fin 2, a = 0 → ((ix2 e c : (⟨2, ![n, C]⟩ : Shape).Idx) a).val = e.val := by rintro _ rfl; rfl
  have rd1 : ∀ a : Fin 2, a = 1 → ((ix2 e c : (⟨2, ![n, C]⟩ : Shape).Idx) a).val = c.val := by rintro _ rfl; rfl
  -- the start index that result entry (e, c) reads is the column's entry at row e
  have hsi : ∀ h, d.siIdx (ix2 e c) ⟨List.idxOf (0 : Fin 2) d.startIndexMap, h⟩ = ix2 e 0 := fun h => by
    funext b
    match b with
    | ⟨0, _⟩ =>
      unfold GatherDims.siIdx
      rw [dif_neg (by rw [hivd]; simp)]
      unfold GatherDims.siCoord
      apply Fin.ext
      simp only [Fin.val_cast]
      exact rd0 _ (hbat0 _ _)
    | ⟨1, _⟩ =>
      unfold GatherDims.siIdx
      rw [dif_pos (by rw [hivd])]
      apply Fin.ext
      show List.idxOf (0 : Fin 2) d.startIndexMap = 0
      rw [hsim]; simp
  have e0 : (d.operandIdx (ix2 e c) idx 0).val = min (idx (ix2 e 0)).toInt.toNat (R - 1) := by
    simp only [GatherDims.operandIdx, GatherDims.batchCoord_eq_zero _ _ _ (hnb _), GatherDims.start, dif_pos hm0,
      GatherDims.offCoord_eq_zero _ _ _ hk0, Nat.add_zero]
    rw [hsi, hsl]
    rfl
  have e1 : (d.operandIdx (ix2 e c) idx 1).val = c.val := by
    simp only [GatherDims.operandIdx, GatherDims.batchCoord_eq_zero _ _ _ (hnb _), GatherDims.start, dif_neg hm1,
      Nat.add_zero, Nat.zero_add]
    unfold GatherDims.offCoord
    rw [dif_pos hk1]
    exact rd1 _ (hoff1 _ _)
  unfold Host.gather
  congr 1
  funext a
  apply Fin.ext
  match a with
  | ⟨0, _⟩ => exact e0
  | ⟨1, _⟩ => exact e1

end Cert.LibRowTake
-- ==== Proof.LibRowScatter.lean ====
/-
  Rows added into a table at a list of positions, read at one entry, for every size.

  `jax.ops.segment_sum(upd, idx, num_segments = N)` over `E` update rows of width `D` is a scatter with an `add` body
  into an `N × D` table: the scatter indices are the `E × 1` column of positions, the updates' axis 1 is their one
  window axis and goes to the table's axis 1 whole, the table's axis 0 is the inserted one and is the axis a position
  names, and the index vector lies along axis 1 of the scatter indices. Update entry `(e, c)` lands on table entry
  `(idx e, c)`, the position read as a SIGNED integer and NOT clamped; an update whose position is negative or past the
  last row lands nowhere and is dropped.

  So at the exact instance the entry `(n, c)` of the result is the table's own entry plus the sum, over the positions
  `e` whose word reads `n`, of the update entries `(e, c)`: the updates that land on `(n, c)` are exactly those, one
  per such position, since the window coordinate must be `c` itself.

  The dimension numbers enter as hypotheses, so a program's printed record with these numbers is an instance, each
  hypothesis by unfolding.
-/
import Idealize.ShloMosaic.PureOps.Ideal
import Idealize.ShloMosaic.Lib.ValueIdx

noncomputable section

open scoped BigOperators

namespace Cert.LibRowScatter

open Idealize.ShloMosaic Idealize.ShloMosaic.ValueIdx

variable {N D E w : ℕ}

/-- Update entry `(e, c)` lands on table entry `(n, c')` exactly when position `e` reads `n` as a signed integer and
    the columns agree. -/
theorem resultIdx?_rows (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hivd : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c' = c := by
  have hk1 : (1 : Fin 2) ∈ d.sKept := by
    simp only [ScatterDims.sKept, Shape.kept, hiw, List.mem_filter, List.mem_singleton]
    exact ⟨List.mem_finRange _, by simp⟩
  have hk0 : (0 : Fin 2) ∉ d.sKept := by
    simp only [ScatterDims.sKept, Shape.kept, hiw, List.mem_filter, List.mem_singleton]
    simp
  have hm0 : (0 : Fin 2) ∈ d.scatterDimsToOperandDims := by rw [hsd]; exact List.mem_singleton.mpr rfl
  have hm1 : (1 : Fin 2) ∉ d.scatterDimsToOperandDims := by rw [hsd]; simp
  -- the updates' one window axis is axis 1, their one scatter axis is axis 0
  have huwm : ∀ a ∈ d.updateWindowDims, a = (1 : Fin 2) := fun a ha => by
    rw [huw] at ha; exact List.mem_singleton.1 ha
  have huw1 : ∀ (i : Nat) (hi : i < d.updateWindowDims.length), d.updateWindowDims[i] = (1 : Fin 2) := fun i hi =>
    huwm _ (List.getElem_mem hi)
  have husm : ∀ a ∈ d.uScatter, a = (0 : Fin 2) := fun a ha => by
    simp only [ScatterDims.uScatter, Shape.kept, huw, List.mem_filter, List.mem_singleton] at ha
    have hne : a ≠ (1 : Fin 2) := by simpa using ha.2
    have hlt : a.val < 2 := a.isLt
    have hv : a.val ≠ 1 := fun h => hne (Fin.ext h)
    apply Fin.ext
    show a.val = 0
    omega
  have hus0 : ∀ (i : Nat) (hi : i < d.uScatter.length), d.uScatter[i] = (0 : Fin 2) := fun i hi =>
    husm _ (List.getElem_mem hi)
  have rd0 : ∀ a : Fin 2, a = 0 → ((ix2 e c : (⟨2, ![E, D]⟩ : Shape).Idx) a).val = e.val := by rintro _ rfl; rfl
  have rd1 : ∀ a : Fin 2, a = 1 → ((ix2 e c : (⟨2, ![E, D]⟩ : Shape).Idx) a).val = c.val := by rintro _ rfl; rfl
  -- the position that update entry (e, c) reads is the column's entry at row e
  have hsi : ∀ h, d.siIdx (ix2 e c) ⟨List.idxOf (0 : Fin 2) d.scatterDimsToOperandDims, h⟩ = ix2 e 0 := fun h => by
    funext b
    match b with
    | ⟨0, _⟩ =>
      unfold ScatterDims.siIdx
      rw [dif_neg (by rw [hivd]; simp)]
      unfold ScatterDims.siCoord
      apply Fin.ext
      simp only [Fin.val_cast]
      exact rd0 _ (hus0 _ _)
    | ⟨1, _⟩ =>
      unfold ScatterDims.siIdx
      rw [dif_pos (by rw [hivd])]
      apply Fin.ext
      show List.idxOf (0 : Fin 2) d.scatterDimsToOperandDims = 0
      rw [hsd]; simp
  have s0 : d.start (ix2 e c) idx 0 = (idx (ix2 e 0)).toInt := by
    unfold ScatterDims.start; rw [dif_pos hm0, hsi]
  have s1 : d.start (ix2 e c) idx 1 = 0 := by
    unfold ScatterDims.start; rw [dif_neg hm1]
  have w0 : d.window (ix2 e c) 0 = 0 := by
    unfold ScatterDims.window; rw [dif_neg hk0]
  have w1 : d.window (ix2 e c) 1 = c.val := by
    unfold ScatterDims.window; rw [dif_pos hk1]
    exact rd1 _ (huw1 _ _)
  have hc : c.val < D := c.isLt
  have hn : n.val < N := n.isLt
  unfold ScatterDims.resultIdx?
  constructor
  · intro h
    split at h
    · rename_i hin
      have h' := Option.some.inj h
      have a0 := congrArg (fun i => (i 0).val) h'
      have a1 := congrArg (fun i => (i 1).val) h'
      have b0 := (hin 0).1
      simp only [s0, s1, w0, w1] at a0 a1 b0
      refine ⟨?_, ?_⟩
      · have : ((ix2 n c' : (⟨2, ![N, D]⟩ : Shape).Idx) 0).val = n.val := rfl
        rw [this] at a0
        omega
      · have : ((ix2 n c' : (⟨2, ![N, D]⟩ : Shape).Idx) 1).val = c'.val := rfl
        rw [this] at a1
        apply Fin.ext
        omega
    · exact absurd h (by simp)
  · rintro ⟨hs, rfl⟩
    have hin : ∀ a : Fin 2, 0 ≤ d.start (ix2 e c') idx a + (d.window (ix2 e c') a : ℤ) ∧
        d.start (ix2 e c') idx a + (d.window (ix2 e c') a : ℤ) < ((⟨2, ![N, D]⟩ : Shape).size a : ℤ) := by
      intro a
      match a with
      | ⟨0, _⟩ =>
        show 0 ≤ d.start (ix2 e c') idx 0 + (d.window (ix2 e c') 0 : ℤ) ∧
          d.start (ix2 e c') idx 0 + (d.window (ix2 e c') 0 : ℤ) < (N : ℤ)
        rw [s0, w0, hs]; omega
      | ⟨1, _⟩ =>
        show 0 ≤ d.start (ix2 e c') idx 1 + (d.window (ix2 e c') 1 : ℤ) ∧
          d.start (ix2 e c') idx 1 + (d.window (ix2 e c') 1 : ℤ) < (D : ℤ)
        rw [s1, w1]; omega
    rw [dif_pos hin]
    congr 1
    funext a
    apply Fin.ext
    match a with
    | ⟨0, _⟩ =>
      show (d.start (ix2 e c') idx 0 + (d.window (ix2 e c') 0 : ℤ)).toNat = n.val
      rw [s0, w0, hs]; omega
    | ⟨1, _⟩ =>
      show (d.start (ix2 e c') idx 1 + (d.window (ix2 e c') 1 : ℤ)).toNat = c'.val
      rw [s1, w1]; omega

/-- The accumulating scatter of rows at `(n, c)`: the table's entry plus the update entries `(e, c)` of the positions
    `e` that read `n`. -/
theorem scatterAdd_rows_apply {φ : FTy} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hivd : d.indexVectorDim = 1) (x : FVec Ideal ⟨2, ![N, D]⟩ φ) (idx : IVec ⟨2, ![E, 1]⟩ w)
    (upd : FVec Ideal ⟨2, ![E, D]⟩ φ) (n : Fin N) (c : Fin D) :
    Host.scatterAdd d x idx upd (ix2 n c)
      = x (ix2 n c) + ∑ e ∈ Finset.univ.filter (fun e : Fin E => (idx (ix2 e 0)).toInt = (n.val : ℤ)), upd (ix2 e c) := by
  show Ideal.hostScatterAdd d x idx upd (ix2 n c) = _
  unfold Ideal.hostScatterAdd
  congr 1
  rw [Finset.sum_filter, sum_idx2, Finset.sum_filter]
  refine Finset.sum_congr rfl fun e _ => ?_
  by_cases hP : (idx (ix2 e 0)).toInt = (n.val : ℤ)
  · rw [if_pos hP]
    rw [Finset.sum_eq_single c]
    · rw [if_pos ((resultIdx?_rows d huw hiw hsd hivd idx e c n c).2 ⟨hP, rfl⟩)]
    · intro c' _ hne
      rw [if_neg fun h => hne ((resultIdx?_rows d huw hiw hsd hivd idx e c' n c).1 h).2.symm]
    · intro h; exact absurd (Finset.mem_univ c) h
  · rw [if_neg hP]
    refine Finset.sum_eq_zero fun c' _ => ?_
    rw [if_neg fun h => hP ((resultIdx?_rows d huw hiw hsd hivd idx e c' n c).1 h).1]

end Cert.LibRowScatter

end
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.KernelAgg.lean ====
/-
  What the kernel's pallas_call is given: the aggregated features and the bias row, as the host operations before the
  call leave them.

  The aggregated array is a scatter-add into a zero `100000 × 4` table: edge `e` adds, at the row its TARGET names (read
  signed, dropped when out of range), the feature row of its SOURCE (read signed, wrapped once if negative, clamped
  into the table) scaled by the edge's weight `ν e`. So its entry `(n, k)` is `0 + ∑ x (source e, k) · ν e` over the
  edges `e` whose target reads `n`. The bias row is the bias vector with a unit axis in front. Both are stated first for
  arbitrary position columns and weights (nothing about the edge array is needed to read them at an entry) and then
  identified with the buffers the call finds.
-/
import proofs.«105786_j47519518163429_1_alg».proof.Proof.Gen.KernelIdeal.Frame
import proofs.«105786_j47519518163429_1_alg».proof.Proof.Glue
import proofs.«105786_j47519518163429_1_alg».proof.Proof.LibRowTake
import proofs.«105786_j47519518163429_1_alg».proof.Proof.LibRowScatter
import proofs.«105786_j47519518163429_1_alg».proof.Proof.LibBroadcastRead
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Agg

open Cert.KernelIdeal Cert.KernelIdeal.Gen Cert.KernelIdeal.Glue Idealize.ShloMosaic Idealize.ShloMosaic.TcCoe Idealize.SL.Sem
open Idealize.ShloMosaic.ValueIdx Idealize.ShloMosaic.StableHlo

section Terms

variable {F : FTy → Type} [FloatOps F]

/-- Rows of `x` taken at `rown`, scaled by `ν`, added into a zero table at the rows `colb` names. -/
def aggOf (x : FVec F S100000x4 .f32) (colb rown : IVec S740000x1 32) (ν : FVec F S740000 .f32) : FVec F S100000x4 .f32 :=
  Host.scatterAdd scatter_S100000x4_S740000x1_S740000x4_1_0_0_1
    (broadcastInDim S100000x4 ![] bcast_S_S100000x4 (constant S_ .f32 0x00000000#32)) colb
    (mulf (Host.gather gather_S100000x4_S740000x1_S740000x4_1_0_n_n_0_1_14 x rown)
      (broadcastInDim S740000x4 ![0, 1] bcast_S740000x1_S740000x4_0_1 (broadcastInDim S740000x1 ![0] bcast_S740000_S740000x1_0 ν)))

/-- The aggregated features of the node features `x` over the edge array `ei`. -/
def aggTerm (x : FVec F S100000x4 .f32) (ei : IVec S2x640000 32) : FVec F S100000x4 .f32 :=
  aggOf x (asCol (dstv ei)) (asCol (wrap (srcv ei))) (nu ei)

/-- The bias vector as a one-row matrix. -/
def biasRow (b : FVec F S128 .f32) : FVec F S1x128 .f32 := shapeCast _ b shapeCasts_S128_S1x128

variable (m : (ℓ : Loc nD τ sig) → Buf (Elt F) ℓ)

set_option maxRecDepth 8192 in
set_option maxHeartbeats 25200000 in
/-- The array the call's first window stages is the aggregated features of the arguments. -/
theorem V_agg (c : Dev nD) :
    (V m c main_v44 : FVec F S100000x4 .f32)
      = aggTerm (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp <;> rfl

set_option maxRecDepth 8192 in
set_option maxHeartbeats 25200000 in
/-- The array its third window stages is the bias row. -/
theorem V_bias (c : Dev nD) :
    (V m c main_v45 : FVec F S1x128 .f32) = biasRow (m ((c : Thread nD τ).loc main_arg3)) := by
  dsimp only [Gen.V]
  simp only [Gen.hostOps0, Gen.hostOps0_1, Gen.hostOps0_2, List.flatten_cons, List.flatten_nil, List.append_nil,
    List.cons_append, List.nil_append]
  after_results_simp <;> rfl

/-! The call's windows name their arrays through the window table; these are the buffers above: equal names, same
contents. -/

theorem arr0 : Pipeline.arrRef spec0 (0 : Fin cfg0.W) = main_v44 := rfl
theorem arr1 : Pipeline.arrRef spec0 (1 : Fin cfg0.W) = main_arg2 := rfl
theorem arr2 : Pipeline.arrRef spec0 (2 : Fin cfg0.W) = main_v45 := rfl

/-- Equal names, same contents. -/
theorem V_heq (c : Dev nD) : ∀ {b b' : Ref sig .tc}, b = b' → HEq (V m c b) (V m c b') := by
  rintro b _ rfl; exact HEq.rfl

/-- The first window's array is the aggregated features of the arguments. -/
theorem in0 (c : Dev nD) :
    (V m c (Pipeline.arrRef spec0 0) : FVec F S100000x4 .f32)
      = aggTerm (m ((c : Thread nD τ).loc main_arg0)) (m ((c : Thread nD τ).loc main_arg1)) :=
  (eq_of_heq (V_heq m c arr0)).trans (V_agg m c)

/-- The second window's array is the weight argument. -/
theorem in1 (c : Dev nD) :
    (V m c (Pipeline.arrRef spec0 1) : FVec F S4x128 .f32) = m ((c : Thread nD τ).loc main_arg2) :=
  (eq_of_heq (V_heq m c arr1)).trans (V_main_arg2 m c)

/-- The third window's array is the bias row. -/
theorem in2 (c : Dev nD) :
    (V m c (Pipeline.arrRef spec0 2) : FVec F S1x128 .f32) = biasRow (m ((c : Thread nD τ).loc main_arg3)) :=
  (eq_of_heq (V_heq m c arr2)).trans (V_bias m c)

end Terms

/-! ## Read at an entry, at the exact instance -/

/-- Entry `(n, k)` of the aggregate: zero plus, over the edges whose target position reads `n`, feature `k` of the
    edge's source row times the edge's weight. -/
theorem aggOf_apply (x : FVec Ideal S100000x4 .f32) (colb rown : IVec S740000x1 32) (ν : FVec Ideal S740000 .f32)
    (n : Fin 100000) (k : Fin 4) :
    aggOf x colb rown ν (ix2 n k)
      = 0 + ∑ e ∈ Finset.univ.filter (fun e : Fin 740000 => (colb (ix2 e 0)).toInt = (n.val : ℤ)),
          x (ix2 (Cert.LibRowTake.rowOf 100000 (by decide) (rown (ix2 e 0))) k) * ν (ix1 e) := by
  unfold aggOf
  refine (Cert.LibRowScatter.scatterAdd_rows_apply scatter_S100000x4_S740000x1_S740000x4_1_0_0_1 rfl rfl rfl rfl _ colb _ n k).trans ?_
  refine congrArg₂ (· + ·) ?_ (Finset.sum_congr rfl fun e _ => ?_)
  · rw [scalar_const_apply]; exact Ideal.ofBits_zero_f32
  · rw [mulf_apply, Cert.LibRowTake.gather_rows gather_S100000x4_S740000x1_S740000x4_1_0_n_n_0_1_14 rfl rfl rfl rfl rfl x rown e k (by decide),
      Cert.LibBroadcastRead.col_along_apply, Cert.LibBroadcastRead.vec_as_col_apply]

/-- Entry `(0, c)` of the bias row is entry `c` of the bias. -/
theorem biasRow_apply (b : FVec Ideal S128 .f32) (c : Fin 128) : biasRow b (ix2 (0 : Fin 1) c) = b (ix1 c) := by
  unfold biasRow
  refine (shapeCast_addUnit_apply ![128] b shapeCasts_S128_S1x128 (ix2 (0 : Fin 1) c)).trans ?_
  exact congrArg b (funext fun a => by match a with | ⟨0, _⟩ => rfl)

end Cert.KernelIdeal.Agg

end
-- ==== Proof.ReferenceValue.lean ====
/-
  What the reference returns, as one term over the shared edge bookkeeping, and that term read at an entry.

  The reference first takes every node's feature row through the weights, `xw = x · W` (`100000 × 128`), then does the
  same scatter-add as the kernel's host code but on the 128-wide rows of `xw`, and adds the bias to every row. So its
  entry `(n, c)` is `(0 + ∑ (∑ k, x (source e, k) · W (k, c)) · ν e) + b c` over the edges `e` whose target reads `n`,
  with the same reading of positions as the kernel's aggregate: sources signed, wrapped and clamped, targets signed and
  dropped when out of range. The term is stated for arbitrary position columns and weights, and the program's result is
  that term at the edge bookkeeping of `Glue` (the same text over this program's own copies of the shape facts).
-/
import proofs.«105786_j47519518163429_1_alg».proof.Proof.ReferenceRun
import proofs.«105786_j47519518163429_1_alg».proof.Proof.Glue
import proofs.«105786_j47519518163429_1_alg».proof.Proof.LibRowTake
import proofs.«105786_j47519518163429_1_alg».proof.Proof.LibRowScatter
import proofs.«105786_j47519518163429_1_alg».proof.Proof.LibBroadcastRead
import proofs.«105786_j47519518163429_1_alg».proof.Proof.LibPlainProduct
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Out

open Cert.ReferenceIdeal Cert.ReferenceIdeal.Gen Idealize.ShloMosaic Idealize.ShloMosaic.TcCoe Idealize.SL.Sem
open Idealize.ShloMosaic.ValueIdx

section Terms

variable {F : FTy → Type} [FloatOps F]

/-- Rows of `x · W` taken at `rown`, scaled by `ν`, added into a zero table at the rows `colb` names, plus the bias. -/
def outOf (x : FVec F S100000x4 .f32) (W : FVec F S4x128 .f32) (b : FVec F S128 .f32) (colb rown : IVec S740000x1 32)
    (ν : FVec F S740000 .f32) : FVec F S100000x128 .f32 :=
  addf (Host.scatterAdd scatter_S100000x128_S740000x1_S740000x128_1_0_0_1
      (broadcastInDim S100000x128 ![] bcast_S_S100000x128 (constant S_ .f32 0x00000000#32)) colb
      (mulf (Host.gather gather_S100000x128_S740000x1_S740000x128_1_0_n_n_0_1_1128
          (Host.dotGeneral dot_S100000x4_S4x128_S100000x128_1_0_0_1_n_n none x W) rown)
        (broadcastInDim S740000x128 ![0, 1] bcast_S740000x1_S740000x128_0_1 (broadcastInDim S740000x1 ![0] bcast_S740000_S740000x1_0 ν))))
    (broadcastInDim S100000x128 ![0, 1] bcast_S1x128_S100000x128_0_1 (broadcastInDim S1x128 ![1] bcast_S128_S1x128_1 b))

variable (m : (ℓ : Loc nD τ sig) → Buf (Elt F) ℓ)

/-- The reference's result is that term of its arguments, at the shared edge bookkeeping. -/
theorem res_eq (c : Dev nD) :
    Cert.ReferenceIdeal.Value.res_main_v48 m c
      = outOf (m ((c.tc : Thread nD τ).loc main_arg0)) (m ((c.tc : Thread nD τ).loc main_arg2)) (m ((c.tc : Thread nD τ).loc main_arg3))
          (Cert.KernelIdeal.Glue.asCol (Cert.KernelIdeal.Glue.dstv (m ((c.tc : Thread nD τ).loc main_arg1))))
          (Cert.KernelIdeal.Glue.asCol (Cert.KernelIdeal.Glue.wrap (Cert.KernelIdeal.Glue.srcv (m ((c.tc : Thread nD τ).loc main_arg1)))))
          (Cert.KernelIdeal.Glue.nu (m ((c.tc : Thread nD τ).loc main_arg1))) := by
  unfold Cert.ReferenceIdeal.Value.res_main_v48 outOf
  rfl

end Terms

/-! ## Read at an entry, at the exact instance -/

/-- The printed product's dimension numbers are those of a plain 100000 × 4 by 4 × 128 product. -/
theorem dot_eq_plain : dot_S100000x4_S4x128_S100000x128_1_0_0_1_n_n = DotDims.plain 100000 4 128 := rfl

/-- Entry `(n, c)` of the reference's term: zero plus, over the edges whose target position reads `n`, the edge's
    source row through column `c` of the weights, times the edge's weight; plus the bias at `c`. -/
theorem outOf_apply (x : FVec Ideal S100000x4 .f32) (W : FVec Ideal S4x128 .f32) (b : FVec Ideal S128 .f32)
    (colb rown : IVec S740000x1 32) (ν : FVec Ideal S740000 .f32) (n : Fin 100000) (c : Fin 128) :
    outOf x W b colb rown ν (ix2 n c)
      = (0 + ∑ e ∈ Finset.univ.filter (fun e : Fin 740000 => (colb (ix2 e 0)).toInt = (n.val : ℤ)),
          (∑ k : Fin 4, x (ix2 (Cert.LibRowTake.rowOf 100000 (by decide) (rown (ix2 e 0))) k) * W (ix2 k c)) * ν (ix1 e))
        + b (ix1 c) := by
  unfold outOf
  rw [addf_apply]
  refine congrArg₂ (· + ·) ?_ ?_
  · refine (Cert.LibRowScatter.scatterAdd_rows_apply scatter_S100000x128_S740000x1_S740000x128_1_0_0_1 rfl rfl rfl rfl _ colb _ n c).trans ?_
    refine congrArg₂ (· + ·) ?_ (Finset.sum_congr rfl fun e _ => ?_)
    · rw [Cert.KernelIdeal.Glue.scalar_const_apply]; exact Ideal.ofBits_zero_f32
    · rw [mulf_apply, Cert.LibRowTake.gather_rows gather_S100000x128_S740000x1_S740000x128_1_0_n_n_0_1_1128 rfl rfl rfl rfl rfl _ rown e c (by decide),
        Cert.LibBroadcastRead.col_along_apply, Cert.LibBroadcastRead.vec_as_col_apply, dot_eq_plain]
      exact congrArg (· * _) (Cert.LibPlainProduct.dotGeneral_plain_apply x W none .single _ c)
  · rw [Cert.LibBroadcastRead.row_down_apply, Cert.LibBroadcastRead.vec_as_row_apply]

end Cert.ReferenceIdeal.Out

end
-- ==== Proof.Linear.lean ====
/-
  A weighted sum of rows commutes with a linear map, on the extended reals, when everything is finite.

  Let `x e k` be row `e` of a table, `ν e` a weight per row, `S` a finite set of rows and `W k` one column of a
  matrix. Summing the weighted rows first and then taking the product with the column,
  `∑ k, (∑ e ∈ S, x e k · ν e) · W k`, gives the same number as taking each row's product with the column first and then
  summing these with the weights, `∑ e ∈ S, (∑ k, x e k · W k) · ν e`: both are `∑ e ∈ S, ∑ k, x e k · ν e · W k`.
  On the extended reals this needs every entry to be a real number: distributivity fails at the infinities (with
  `ν = ⊤`, a row `(1, -1)` and a column `(1, 1)` the first is `⊤ + ⊥ = ⊥` and the second `0 · ⊤ = 0`). Under that
  hypothesis both sides are the coercion of one real number.
-/
import Idealize.ShloMosaic.PureOps.Ideal

noncomputable section

open scoped BigOperators

namespace Cert.Linear

/-- The coercion of the reals into the extended reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregate then map equals map then aggregate, for real entries (each side starting from a zero accumulator, as the
    two programs spell it). -/
theorem aggregate_map {ι κ : Type*} [Fintype κ] (S : Finset ι) (x : ι → κ → EReal) (ν : ι → EReal) (W : κ → EReal)
    (hx : ∀ e k, ∃ r : ℝ, x e k = r) (hν : ∀ e, ∃ r : ℝ, ν e = r) (hW : ∀ k, ∃ r : ℝ, W k = r) :
    ∑ k, (0 + ∑ e ∈ S, x e k * ν e) * W k = 0 + ∑ e ∈ S, (∑ k, x e k * W k) * ν e := by
  choose xr hxr using hx
  choose νr hνr using hν
  choose Wr hWr using hW
  have hL : ∀ k, (0 + ∑ e ∈ S, x e k * ν e) * W k = (((∑ e ∈ S, xr e k * νr e) * Wr k : ℝ) : EReal) := fun k => by
    rw [zero_add, EReal.coe_mul, coe_sum, hWr]
    refine congrArg (· * _) (Finset.sum_congr rfl fun e _ => ?_)
    rw [hxr, hνr, EReal.coe_mul]
  have hR : ∀ e, (∑ k, x e k * W k) * ν e = (((∑ k, xr e k * Wr k) * νr e : ℝ) : EReal) := fun e => by
    rw [EReal.coe_mul, coe_sum, hνr]
    refine congrArg (· * _) (Finset.sum_congr rfl fun k _ => ?_)
    rw [hxr, hWr, EReal.coe_mul]
  rw [zero_add, Finset.sum_congr rfl fun k _ => hL k, Finset.sum_congr rfl fun e _ => hR e, ← coe_sum, ← coe_sum]
  refine congrArg _ ?_
  simp only [Finset.sum_mul]
  rw [Finset.sum_comm]
  exact Finset.sum_congr rfl fun e _ => Finset.sum_congr rfl fun k _ => by ring

end Cert.Linear

end
-- ==== Proof.Finite.lean ====
/-
  What the precondition gives: every entry of the node features and of the weights is a real number.

  The precondition is `all(|x| < +∞) ∧ all(|W| < +∞) ∧ all(|b| < +∞)`, each `all` a reduction by `and` over every entry
  from the constant true. Read on the extended reals, `|x| = max x (-x)` is below `+∞` exactly when `x` is neither
  infinity, that is, when `x` is a real number. (The bias is finite too, but the equivalence adds it last on both sides
  and never needs that.)
-/
import proofs.«105786_j47519518163429_1_alg».proof.Defs
import proofs.«105786_j47519518163429_1_alg».proof.Proof.Gen.Pre_finite_inputs
import proofs.«105786_j47519518163429_1_alg».proof.Proof.Glue
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- The all-ones exponent with a zero fraction denotes `+∞`. -/
theorem ofBits_inf : Ideal.ofBits .f32 0x7F800000#32 = ⊤ := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  induction x using EReal.rec with
  | bot => exact absurd hlt (by simp)
  | top => exact absurd hlt (by simp)
  | coe r => exact ⟨r, rfl⟩

/-- Under the precondition the node features and the weights hold real numbers only. -/
theorem reals_of_pre [Cert.Pre_finite_inputs.Facts] (a0 : FVec Ideal Cert.Pre_finite_inputs.S100000x4 .f32)
    (a1 : IVec Cert.Pre_finite_inputs.S2x640000 32) (a2 : FVec Ideal Cert.Pre_finite_inputs.S4x128 .f32)
    (a3 : FVec Ideal Cert.Pre_finite_inputs.S128 .f32)
    (h : Cert.Pre_finite_inputs.fn (F := Ideal) a0 a1 a2 a3 = fun _ => 1#1) :
    (∀ i, ∃ r : ℝ, a0 i = (r : EReal)) ∧ (∀ i, ∃ r : ℝ, a2 i = (r : EReal)) := by
  have h0 := congrFun h ix0
  dsimp only [Cert.Pre_finite_inputs.fn] at h0
  obtain ⟨h01, -⟩ := IntOp.andi_eq_one.1 (show IntOp.andi _ _ = 1#1 from h0)
  obtain ⟨hx, hW⟩ := IntOp.andi_eq_one.1 (show IntOp.andi _ _ = 1#1 from h01)
  refine ⟨fun i => ?_, fun i => ?_⟩
  · have e := Host.reduce_andi_all _ _ _ _ ix0 hx i
    rw [cmpf_apply, Cert.KernelIdeal.Glue.scalar_const_apply] at e
    exact real_of_abs_lt_inf (a0 i) e
  · have e := Host.reduce_andi_all _ _ _ _ ix0 hW i
    rw [cmpf_apply, Cert.KernelIdeal.Glue.scalar_const_apply] at e
    exact real_of_abs_lt_inf (a2 i) e

end Cert.Finite

end
-- ==== Proof.Bridge.lean ====
/-
  The kernel's result and the reference's result are one array.

  The kernel aggregates the 4-wide node features over the edges first and applies the 4 → 128 weights afterwards; the
  reference applies the weights first and aggregates the 128-wide rows. With `S n` the edges whose target reads `n`,
  `r e` the row edge `e`'s source reads and `ν e` its weight, entry `(n, c)` is

      kernel      `∑ k, (0 + ∑ e ∈ S n, x (r e, k) · ν e) · W (k, c) + b c`
      reference   `(0 + ∑ e ∈ S n, (∑ k, x (r e, k) · W (k, c)) · ν e) + b c`

  with the same `S`, `r` and `ν` on both sides (both programs compute them by the same host operations, and both read
  a source position signed, wrapped and clamped, and a target position signed and dropped when out of range). These
  are equal because aggregation is linear, which on the extended reals needs `x`, `W` and `ν` to be real numbers:
  `x` and `W` by the precondition, `ν` because it is a product of two values that are each `0` or an inverse square
  root of something at least `ε > 0`. The bias is added last on both sides.
-/
import proofs.«105786_j47519518163429_1_alg».proof.Defs
import proofs.«105786_j47519518163429_1_alg».proof.Proof.Gen.Kernel.Frame
import proofs.«105786_j47519518163429_1_alg».proof.Proof.KernelValue
import proofs.«105786_j47519518163429_1_alg».proof.Proof.KernelAgg
import proofs.«105786_j47519518163429_1_alg».proof.Proof.ReferenceValue
import proofs.«105786_j47519518163429_1_alg».proof.Proof.Linear
import proofs.«105786_j47519518163429_1_alg».proof.Proof.Finite

set_option maxRecDepth 16384

noncomputable section

open scoped BigOperators

namespace Cert.Bridge

open Idealize.ShloMosaic Idealize.ShloMosaic.TcCoe Idealize.SL.Sem Idealize.ShloMosaic.ValueIdx

/-- The dense layer of the aggregate is the reference's term, for any position columns and any real weights. -/
theorem dense_aggOf_eq_outOf (x : FVec Ideal Cert.KernelIdeal.S100000x4 .f32) (W : FVec Ideal Cert.KernelIdeal.S4x128 .f32)
    (b : FVec Ideal Cert.KernelIdeal.S128 .f32) (colb rown : IVec Cert.KernelIdeal.S740000x1 32)
    (ν : FVec Ideal Cert.KernelIdeal.S740000 .f32)
    (hx : ∀ i, ∃ r : ℝ, x i = (r : EReal)) (hW : ∀ i, ∃ r : ℝ, W i = (r : EReal)) (hν : ∀ j, ∃ r : ℝ, ν j = (r : EReal)) :
    Cert.KernelIdeal.Dense.dense (Cert.KernelIdeal.Agg.aggOf x colb rown ν) W (Cert.KernelIdeal.Agg.biasRow b)
      = Cert.ReferenceIdeal.Out.outOf x W b colb rown ν := by
  funext i
  obtain ⟨n, c, rfl⟩ : ∃ (n : Fin 100000) (c : Fin 128), i = ix2 n c := ⟨i 0, i 1, eq_ix2 i⟩
  rw [Cert.ReferenceIdeal.Out.outOf_apply]
  show (∑ k : Fin 4, Cert.KernelIdeal.Agg.aggOf x colb rown ν (ix2 n k) * W (ix2 k c))
      + Cert.KernelIdeal.Agg.biasRow b (ix2 (0 : Fin 1) c) = _
  rw [Cert.KernelIdeal.Agg.biasRow_apply]
  refine congrArg₂ (fun u v : EReal => u + v) ?_ rfl
  refine (Finset.sum_congr rfl fun k _ =>
    congrArg₂ (fun u v : EReal => u * v) (Cert.KernelIdeal.Agg.aggOf_apply x colb rown ν n k) rfl).trans ?_
  exact Cert.Linear.aggregate_map _
    (fun (e : Fin 740000) (k : Fin 4) => x (ix2 (Cert.LibRowTake.rowOf 100000 (by decide) (rown (ix2 e 0))) k))
    (fun e => ν (ix1 e)) (fun k => W (ix2 k c)) (fun e k => hx _) (fun e => hν _) (fun k => hW _)

/-! ## The claims -/

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the same output array: the kernel's is the dense
    layer of the aggregate, the reference's its own term, and the two are one function of finite arguments. -/
theorem algebraic : Cert.algebraic_KernelIdeal_ReferenceIdeal := by
  intro m ρ m' ρ' hpre hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW⟩ := Cert.Finite.reals_of_pre _ _ _ _ (hpre c)
  rw [Cert.ReferenceIdeal.Out.res_eq, (hagree c).1, (hagree c).2.1, (hagree c).2.2.1, (hagree c).2.2.2,
    Cert.KernelIdeal.Agg.in0, Cert.KernelIdeal.Agg.in1, Cert.KernelIdeal.Agg.in2]
  unfold Cert.KernelIdeal.Agg.aggTerm
  exact (dense_aggOf_eq_outOf _ _ _ _ _ _ hx hW (Cert.KernelIdeal.Glue.nu_real _)).symm

end Cert.Bridge

end
-- ==== Proof.lean ====
/- The claim: the GCN layer computed with the dense 4 → 128 map AFTER the edge aggregation (the kernel: a host-side
   gather / scatter-add on 4-wide rows, then one pallas_call doing `agg · W + b` in ten row blocks) equals, on the
   extended reals and for finite inputs, the same layer computed with the map BEFORE the aggregation (the reference).
   The three frames are the generated ones (the reference's is its run); nothing was idealized, so `preserves` is
   trivial; the equivalence is Proof/Bridge.lean. -/
import proofs.«105786_j47519518163429_1_alg».proof.Defs
import proofs.«105786_j47519518163429_1_alg».proof.Proof.Gen.Kernel
import proofs.«105786_j47519518163429_1_alg».proof.Proof.Gen.Kernel.Skeleton
import proofs.«105786_j47519518163429_1_alg».proof.Proof.Gen.Kernel.Launch
import proofs.«105786_j47519518163429_1_alg».proof.Proof.Gen.Kernel.Points
import proofs.«105786_j47519518163429_1_alg».proof.Proof.Gen.Kernel.Frame
import proofs.«105786_j47519518163429_1_alg».proof.Proof.Gen.KernelIdeal
import proofs.«105786_j47519518163429_1_alg».proof.Proof.Gen.KernelIdeal.Skeleton
import proofs.«105786_j47519518163429_1_alg».proof.Proof.Gen.KernelIdeal.Launch
import proofs.«105786_j47519518163429_1_alg».proof.Proof.Gen.KernelIdeal.Points
import proofs.«105786_j47519518163429_1_alg».proof.Proof.Gen.KernelIdeal.Frame
import proofs.«105786_j47519518163429_1_alg».proof.Proof.Gen.ReferenceIdeal
import proofs.«105786_j47519518163429_1_alg».proof.Proof.Gen.Pre_finite_inputs
import proofs.«105786_j47519518163429_1_alg».proof.Proof.Gen.KernelIdeal.Value
import proofs.«105786_j47519518163429_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Bridge.frame_p, Cert.Bridge.frame_pi, Cert.Bridge.frame_ri, Cert.Bridge.preserves, Cert.Bridge.algebraic⟩

end Cert.Proof

end
